-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1024 : Shape := ⟨2, ![100000, 1024]⟩
abbrev S64x1024 : Shape := ⟨2, ![64, 1024]⟩
abbrev S64 : Shape := ⟨1, ![64]⟩
abbrev S32x64 : Shape := ⟨2, ![32, 64]⟩
abbrev S32 : Shape := ⟨1, ![32]⟩
abbrev S2x3200000 : Shape := ⟨2, ![2, 3200000]⟩
abbrev S_ : Shape := ⟨0, ![]⟩
abbrev S1x3200000 : Shape := ⟨2, ![1, 3200000]⟩
abbrev S3200000 : Shape := ⟨1, ![3200000]⟩

class Facts : Prop where
  bcast_S_S100000x1024 : S_.BroadcastsInDim S100000x1024 (![] : Fin 0 → Fin S100000x1024.rank)
  reducesTo_S100000x1024_S_d0_1 : S100000x1024.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn_part2 {F : FTy → Type} [FloatOps F] (main_v29 : IVec S_ 1) (main_v33 : IVec S3200000 1) (main_c_11 : IVec S_ 1) : IVec S_ 1 :=
  let main_v34 : IVec S_ 1 := (fun x v => Host.reduce IntOp.andi x v reducesTo_S3200000_S_d0 h_S_) main_v33 main_c_11
  let main_v35 : IVec S_ 1 := andi main_v29 main_v34
  main_v35

def fn_part1 {F : FTy → Type} [FloatOps F] (main_arg4 : FVec F S32 .f32) (main_arg5 : IVec S2x3200000 32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : IVec S1x3200000 32 := (extractStridedSlice S1x3200000 ![0, 0] · slices_S2x3200000_S1x3200000_0_0) main_arg5
  let main_v25 : IVec S3200000 32 := shapeCast S3200000 main_v24 shapeCasts_S1x3200000_S3200000
  let main_c_8 : IVec S_ 32 := constantI S_ 32 4294867296#32
  let main_v26 : IVec S3200000 32 := broadcastInDim S3200000 ![] bcast_S_S3200000 main_c_8
  let main_v27 : IVec S3200000 1 := cmpi .sge main_v25 main_v26
  let main_c_9 : IVec S_ 1 := constantI S_ 1 1#1
  let main_v28 : IVec S_ 1 := (fun x v => Host.reduce IntOp.andi x v reducesTo_S3200000_S_d0 h_S_) main_v27 main_c_9
  let main_v29 : IVec S_ 1 := andi main_v23 main_v28
  let main_v30 : IVec S1x3200000 32 := (extractStridedSlice S1x3200000 ![0, 0] · slices_S2x3200000_S1x3200000_0_0) main_arg5
  let main_v31 : IVec S3200000 32 := shapeCast S3200000 main_v30 shapeCasts_S1x3200000_S3200000
  let main_c_10 : IVec S_ 32 := constantI S_ 32 100000#32
  let main_v32 : IVec S3200000 32 := broadcastInDim S3200000 ![] bcast_S_S3200000 main_c_10
  let main_v33 : IVec S3200000 1 := cmpi .slt main_v31 main_v32
  let main_c_11 : IVec S_ 1 := constantI S_ 1 1#1
  fn_part2 (F := F) main_v29 main_v33 main_c_11

def fn {F : FTy → Type} [FloatOps F] (main_arg0 : FVec F S100000x1024 .f32) (main_arg1 : FVec F S64x1024 .f32) (main_arg2 : FVec F S64 .f32) (main_arg3 : FVec F S32x64 .f32) (main_arg4 : FVec F S32 .f32) (main_arg5 : IVec S2x3200000 32) : IVec S_ 1 :=
  let main_v0 : FVec F S100000x1024 .f32 := Host.absf main_arg0
  let main_cst : FVec F S_ .f32 := constant S_ .f32 0x7F800000#32
  let main_v1 : FVec F S100000x1024 .f32 := broadcastInDim S100000x1024 ![] bcast_S_S100000x1024 main_cst
  let main_v2 : IVec S100000x1024 1 := cmpf .olt main_v0 main_v1
  let main_c : IVec S_ 1 := constantI S_ 1 1#1
  let main_v3 : IVec S_ 1 := (fun x v => Host.reduce IntOp.andi x v reducesTo_S100000x1024_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_v13 main_v16
-- ==== Kernel.lean ====
abbrev S100000x1024 : Shape := ⟨2, ![100000, 1024]⟩
abbrev S64x1024 : Shape := ⟨2, ![64, 1024]⟩
abbrev S64 : Shape := ⟨1, ![64]⟩
abbrev S32x64 : Shape := ⟨2, ![32, 64]⟩
abbrev S32 : Shape := ⟨1, ![32]⟩
abbrev S2x3200000 : Shape := ⟨2, ![2, 3200000]⟩
abbrev S1x3200000 : Shape := ⟨2, ![1, 3200000]⟩
abbrev S3200000 : Shape := ⟨1, ![3200000]⟩
abbrev S1024x64 : Shape := ⟨2, ![1024, 64]⟩
abbrev S100000x64 : Shape := ⟨2, ![100000, 64]⟩
abbrev S2000x1024 : Shape := ⟨2, ![2000, 1024]⟩
abbrev S2000x64 : Shape := ⟨2, ![2000, 64]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S3200000x64 : Shape := ⟨2, ![3200000, 64]⟩
abbrev S1x64 : Shape := ⟨2, ![1, 64]⟩
abbrev S64x32 : Shape := ⟨2, ![64, 32]⟩
abbrev S100000x32 : Shape := ⟨2, ![100000, 32]⟩
abbrev S2000x32 : Shape := ⟨2, ![2000, 32]⟩
abbrev S3200000x32 : Shape := ⟨2, ![3200000, 32]⟩
abbrev S1x32 : Shape := ⟨2, ![1, 32]⟩

abbrev nBuf : Space → Nat
  | .hbm => 77
  | .vmem => 10
  | .smem => 0
  | _ => 0

abbrev bufTy : (tb : Table) → Fin (tcTables nBuf tb) → BufTy
  | .hbm, ⟨0, _⟩ => ⟨S100000x1024, .f32⟩
  | .hbm, ⟨1, _⟩ => ⟨S64x1024, .f32⟩
  | .hbm, ⟨2, _⟩ => ⟨S64, .f32⟩
  | .hbm, ⟨3, _⟩ => ⟨S32x64, .f32⟩
  | .hbm, ⟨4, _⟩ => ⟨S32, .f32⟩
  | .hbm, ⟨5, _⟩ => ⟨S2x3200000, .i32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S1024x64, .f32⟩
  | .hbm, ⟨11, _⟩ => ⟨S100000x64, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S1, .i32⟩
  | .hbm, ⟨21, _⟩ => ⟨S_, .i32⟩
  | .hbm, ⟨22, _⟩ => ⟨S3200000x1, .i32⟩
  | .hbm, ⟨23, _⟩ => ⟨S3200000x1, .i1⟩
  | .hbm, ⟨24, _⟩ => ⟨S1x1, .i32⟩
  | .hbm, ⟨25, _⟩ => ⟨S3200000x1, .i32⟩
  | .hbm, ⟨26, _⟩ => ⟨S3200000x1, .i1⟩
  | .hbm, ⟨27, _⟩ => ⟨S3200000x1, .i1⟩
  | .hbm, ⟨28, _⟩ => ⟨S_, .i1⟩
  | .hbm, ⟨29, _⟩ => ⟨S3200000, .i1⟩
  | .hbm, ⟨30, _⟩ => ⟨S3200000x64, .f32⟩
  | .hbm, ⟨31, _⟩ => ⟨S3200000x64, .i1⟩
  | .hbm, ⟨32, _⟩ => ⟨S_, .f32⟩
  | .hbm, ⟨33, _⟩ => ⟨S3200000x64, .f32⟩
  | .hbm, ⟨34, _⟩ => ⟨S3200000x64, .f32⟩
  | .hbm, ⟨35, _⟩ => ⟨S_, .f32⟩
  | .hbm, ⟨36, _⟩ => ⟨S100000x64, .f32⟩
  | .hbm, ⟨37, _⟩ => ⟨S3200000x1, .i32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S_, .f32⟩
  | .hbm, ⟨43, _⟩ => ⟨S100000x64, .f32⟩
  | .hbm, ⟨44, _⟩ => ⟨S100000x64, .f32⟩
  | .hbm, ⟨45, _⟩ => ⟨S64x32, .f32⟩
  | .hbm, ⟨46, _⟩ => ⟨S100000x32, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S1, .i32⟩
  | .hbm, ⟨56, _⟩ => ⟨S_, .i32⟩
  | .hbm, ⟨57, _⟩ => ⟨S3200000x1, .i32⟩
  | .hbm, ⟨58, _⟩ => ⟨S3200000x1, .i1⟩
  | .hbm, ⟨59, _⟩ => ⟨S1x1, .i32⟩
  | .hbm, ⟨60, _⟩ => ⟨S3200000x1, .i32⟩
  | .hbm, ⟨61, _⟩ => ⟨S3200000x1, .i1⟩
  | .hbm, ⟨62, _⟩ => ⟨S3200000x1, .i1⟩
  | .hbm, ⟨63, _⟩ => ⟨S_, .i1⟩
  | .hbm, ⟨64, _⟩ => ⟨S3200000, .i1⟩
  | .hbm, ⟨65, _⟩ => ⟨S3200000x32, .f32⟩
  | .hbm, ⟨66, _⟩ => ⟨S3200000x32, .i1⟩
  | .hbm, ⟨67, _⟩ => ⟨S_, .f32⟩
  | .hbm, ⟨68, _⟩ => ⟨S3200000x32, .f32⟩
  | .hbm, ⟨69, _⟩ => ⟨S3200000x32, .f32⟩
  | .hbm, ⟨70, _⟩ => ⟨S_, .f32⟩
  | .hbm, ⟨71, _⟩ => ⟨S100000x32, .f32⟩
  | .hbm, ⟨72, _⟩ => ⟨S3200000x1, .i32⟩
  | .hbm, ⟨73, _⟩ => ⟨S100000x32, .f32⟩
  | .hbm, ⟨74, _⟩ => ⟨S1x32, .f32⟩
  | .hbm, ⟨75, _⟩ => ⟨S100000x32, .f32⟩
  | .hbm, ⟨76, _⟩ => ⟨S100000x32, .f32⟩
  | .local _ .vmem, ⟨0, _⟩ => ⟨S2000x1024, .f32⟩
  | .local _ .vmem, ⟨1, _⟩ => ⟨S2000x1024, .f32⟩
  | .local _ .vmem, ⟨2, _⟩ => ⟨S1024x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64x32, .f32⟩
  | .local _ .vmem, ⟨8, _⟩ => ⟨S2000x32, .f32⟩
  | .local _ .vmem, ⟨9, _⟩ => ⟨S2000x32, .f32⟩
  | _, _ => ⟨S100000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_call1_cst : Ref sig .tc := ⟨.hbm, 42, rfl⟩
abbrev main_call1_v0 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_call2_cst : Ref sig .tc := ⟨.hbm, 67, rfl⟩
abbrev main_call2_v15 : Ref sig .tc := ⟨.hbm, 68, rfl⟩
abbrev main_v16 : Ref sig .tc := ⟨.hbm, 69, rfl⟩
abbrev main_cst_0 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  transposes_S64x1024_S1024x64_1_0 : S64x1024.Transposes [1, 0] S1024x64
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2000x64_S2000x64_0_0 : ∀ a, (![0, 0] : Fin 2 → Nat) a + S2000x64.size a ≤ S2000x64.size a
  h_S2000x64 : 0 < S2000x64.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x64_0 : S3200000.BroadcastsInDim S3200000x64 (![0] : Fin 1 → Fin S3200000x64.rank)
  bcast_S_S3200000x64 : S_.BroadcastsInDim S3200000x64 (![] : Fin 0 → Fin S3200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S32x64_S64x32_1_0 : S32x64.Transposes [1, 0] S64x32
  shapeCasts_S2000x64_S2000x64 : S2000x64.ShapeCasts S2000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S2000x32_S2000x32_0_0 : ∀ a, (![0, 0] : Fin 2 → Nat) a + S2000x32.size a ≤ S2000x32.size a
  h_S2000x32 : 0 < S2000x32.numel
  bcast_S3200000_S3200000x32_0 : S3200000.BroadcastsInDim S3200000x32 (![0] : Fin 1 → Fin S3200000x32.rank)
  bcast_S_S3200000x32 : S_.BroadcastsInDim S3200000x32 (![] : Fin 0 → Fin S3200000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S2000x1024_S1024x64_S2000x64_1_0_0_1_n_n_wf : DotDims.WF S2000x1024 S1024x64 S2000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S2000x64_S64x32_S2000x32_1_0_0_1_n_n_wf : DotDims.WF S2000x64 S64x32 S2000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S100000x1024.size a
  hwx0_0 : ∀ i : grid0.Coords, EltTy.bits .f32 = 32 ∨ (Rect.block (s := S100000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x32.size a ≤ S100000x32.size a
  hwx1_2 : ∀ i : grid1.Coords, EltTy.bits .f32 = 32 ∨ (Rect.block (s := S100000x32) S2000x32.size (cc1_transform_2 i) (hinb1_2 i)).WholeWords (EltTy.packing .f32)

variable [Facts₀]

def dot_S2000x1024_S1024x64_S2000x64_1_0_0_1_n_n : DotDims S2000x1024 S1024x64 S2000x64 where
  lhsContracting := [1]
  rhsContracting := [0]
  lhsNonContracting := [0]
  rhsNonContracting := [1]
  lhsBatch := []
  rhsBatch := []
  wf := dot_S2000x1024_S1024x64_S2000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x1024 : Shape := ⟨2, ![100000, 1024]⟩
abbrev S64x1024 : Shape := ⟨2, ![64, 1024]⟩
abbrev S64 : Shape := ⟨1, ![64]⟩
abbrev S32x64 : Shape := ⟨2, ![32, 64]⟩
abbrev S32 : Shape := ⟨1, ![32]⟩
abbrev S2x3200000 : Shape := ⟨2, ![2, 3200000]⟩
abbrev S1x3200000 : Shape := ⟨2, ![1, 3200000]⟩
abbrev S3200000 : Shape := ⟨1, ![3200000]⟩
abbrev S1024x64 : Shape := ⟨2, ![1024, 64]⟩
abbrev S100000x64 : Shape := ⟨2, ![100000, 64]⟩
abbrev S_ : Shape := ⟨0, ![]⟩
abbrev S3200000x1 : Shape := ⟨2, ![3200000, 1]⟩
abbrev S3200000x64 : Shape := ⟨2, ![3200000, 64]⟩
abbrev S1x64 : Shape := ⟨2, ![1, 64]⟩
abbrev S64x32 : Shape := ⟨2, ![64, 32]⟩
abbrev S100000x32 : Shape := ⟨2, ![100000, 32]⟩
abbrev S3200000x32 : Shape := ⟨2, ![3200000, 32]⟩
abbrev S1x32 : Shape := ⟨2, ![1, 32]⟩

abbrev nBuf : Space → Nat
  | .hbm => 49
  | .vmem => 0
  | .smem => 0
  | _ => 0

abbrev bufTy : (tb : Table) → Fin (tcTables nBuf tb) → BufTy
  | .hbm, ⟨0, _⟩ => ⟨S100000x1024, .f32⟩
  | .hbm, ⟨1, _⟩ => ⟨S64x1024, .f32⟩
  | .hbm, ⟨2, _⟩ => ⟨S64, .f32⟩
  | .hbm, ⟨3, _⟩ => ⟨S32x64, .f32⟩
  | .hbm, ⟨4, _⟩ => ⟨S32, .f32⟩
  | .hbm, ⟨5, _⟩ => ⟨S2x3200000, .i32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S1024x64, .f32⟩
  | .hbm, ⟨11, _⟩ => ⟨S100000x64, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x64, .f32⟩
  | .hbm, ⟨21, _⟩ => ⟨S_, .f32⟩
  | .hbm, ⟨22, _⟩ => ⟨S100000x64, .f32⟩
  | .hbm, ⟨23, _⟩ => ⟨S3200000x1, .i32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S64x32, .f32⟩
  | .hbm, ⟨32, _⟩ => ⟨S100000x32, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000x32, .f32⟩
  | .hbm, ⟨42, _⟩ => ⟨S_, .f32⟩
  | .hbm, ⟨43, _⟩ => ⟨S100000x32, .f32⟩
  | .hbm, ⟨44, _⟩ => ⟨S3200000x1, .i32⟩
  | .hbm, ⟨45, _⟩ => ⟨S100000x32, .f32⟩
  | .hbm, ⟨46, _⟩ => ⟨S1x32, .f32⟩
  | .hbm, ⟨47, _⟩ => ⟨S100000x32, .f32⟩
  | .hbm, ⟨48, _⟩ => ⟨S100000x32, .f32⟩
  | _, _ => ⟨S100000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_1 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  transposes_S64x1024_S1024x64_1_0 : S64x1024.Transposes [1, 0] S1024x64
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S32x64_S64x32_1_0 : S32x64.Transposes [1, 0] S64x32
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x1024_S1024x64_S100000x64_1_0_0_1_n_n_wf : DotDims.WF S100000x1024 S1024x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1

variable [Facts₀]

def dot_S100000x1024_S1024x64_S100000x64_1_0_0_1_n_n : DotDims S100000x1024 S1024x64 S100000x64 where
  lhsContracting := [1]
  rhsContracting := [0]
  lhsNonContracting := [0]
  rhsNonContracting := [1]
  lhsBatch := []
  rhsBatch := []
  wf := dot_S100000x1024_S1024x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

class Facts : Prop extends Facts₀ where

variable [Facts]
-- ==== Proof.Linear0.lean ====
/-
  The first (1024 → 64) linear layer's pallas_call, read as a value at the exact extended reals.
  Each grid point t multiplies the 2000-row block t of the left array by the WHOLE right array (its block index is
  (0, 0) at every point) into a zero accumulator, so entry (r, c) of what the point writes back is
      ∑ k, X[2000·t + r, k] · Y[k, c]
  — a change of float format is the identity at this instance, and the unit never sees a partial sum from another point.
  The 50 row blocks tile the 100000-row result, so the array after the region is the whole product  i ↦ ∑ k, X[i₀, k] · Y[k, i₁].
-/
import proofs.«428779_j70832600646051_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Linear0

open Cert.KernelIdeal Cert.KernelIdeal.Gen Idealize.ShloMosaic Idealize.ShloMosaic.TcCoe Idealize.SL.Sem
open Idealize.ShloMosaic.Pipeline (Dat)

/-! ## The product, index by index -/

/-- Entry (i₀, k) of the left array. -/
abbrev lhsAt (i : S100000x64.Idx) (k : Fin 1024) : S100000x1024.Idx := fun a => match a with
  | ⟨0, _⟩ => ⟨(i 0).val, (i 0).isLt⟩
  | ⟨1, _⟩ => ⟨k.val, k.isLt⟩
/-- Entry (k, i₁) of the right array. -/
abbrev rhsAt (i : S100000x64.Idx) (k : Fin 1024) : S1024x64.Idx := fun a => match a with
  | ⟨0, _⟩ => ⟨k.val, k.isLt⟩
  | ⟨1, _⟩ => ⟨(i 1).val, (i 1).isLt⟩

/-- The whole product on the extended reals: entry i is the sum over k of X[i₀, k] · Y[k, i₁]. -/
def prod (X : FVec Ideal S100000x1024 .f32) (Y : FVec Ideal S1024x64 .f32) : FVec Ideal S100000x64 .f32 :=
  fun i => ∑ k : Fin 1024, X (lhsAt i k) * Y (rhsAt i k)

/-! ## One block's product -/

/-- Entry (j₀, k) of the left block. -/
abbrev lhsB (j : S2000x64.Idx) (k : Fin 1024) : S2000x1024.Idx := fun a => match a with
  | ⟨0, _⟩ => ⟨(j 0).val, (j 0).isLt⟩
  | ⟨1, _⟩ => ⟨k.val, k.isLt⟩
/-- Entry (k, j₁) of the right block (the whole right array). -/
abbrev rhsB (j : S2000x64.Idx) (k : Fin 1024) : S1024x64.Idx := fun a => match a with
  | ⟨0, _⟩ => ⟨k.val, k.isLt⟩
  | ⟨1, _⟩ => ⟨(j 1).val, (j 1).isLt⟩

theorem lhs_axis0 (j : S2000x64.Idx) (q : dot_S2000x1024_S1024x64_S2000x64_1_0_0_1_n_n.contr.Idx) :
    (dot_S2000x1024_S1024x64_S2000x64_1_0_0_1_n_n.lhsIdx j q 0).val = (j 0).val := by
  unfold DotDims.lhsIdx
  rw [dif_neg (show ¬(0 : Fin S2000x1024.rank) ∈ dot_S2000x1024_S1024x64_S2000x64_1_0_0_1_n_n.lhsBatch by decide), dif_pos (show (0 : Fin S2000x1024.rank) ∈ dot_S2000x1024_S1024x64_S2000x64_1_0_0_1_n_n.lhsNonContracting by decide)]
  rfl
theorem lhs_axis1 (j : S2000x64.Idx) (q : dot_S2000x1024_S1024x64_S2000x64_1_0_0_1_n_n.contr.Idx) :
    (dot_S2000x1024_S1024x64_S2000x64_1_0_0_1_n_n.lhsIdx j q 1).val = (q ⟨0, by decide⟩).val :=
  dot_S2000x1024_S1024x64_S2000x64_1_0_0_1_n_n.lhsIdx_val_of_single rfl j q
theorem rhs_axis0 (j : S2000x64.Idx) (q : dot_S2000x1024_S1024x64_S2000x64_1_0_0_1_n_n.contr.Idx) :
    (dot_S2000x1024_S1024x64_S2000x64_1_0_0_1_n_n.rhsIdx j q 0).val = (q ⟨0, by decide⟩).val :=
  dot_S2000x1024_S1024x64_S2000x64_1_0_0_1_n_n.rhsIdx_val_of_single rfl j q
theorem rhs_axis1 (j : S2000x64.Idx) (q : dot_S2000x1024_S1024x64_S2000x64_1_0_0_1_n_n.contr.Idx) :
    (dot_S2000x1024_S1024x64_S2000x64_1_0_0_1_n_n.rhsIdx j q 1).val = (j 1).val := by
  unfold DotDims.rhsIdx
  rw [dif_neg (show ¬(1 : Fin S1024x64.rank) ∈ dot_S2000x1024_S1024x64_S2000x64_1_0_0_1_n_n.rhsBatch by decide), dif_pos (show (1 : Fin S1024x64.rank) ∈ dot_S2000x1024_S1024x64_S2000x64_1_0_0_1_n_n.rhsNonContracting by decide)]
  rfl

/-- The body's payload at an entry of the output block: the matrix unit's product into the zero accumulator is the plain
    sum over the contraction index; the two format changes and the same-shape casts are identities here. -/
theorem pay_apply (x0 : FVec Ideal S2000x1024 .f32) (x1 : FVec Ideal S1024x64 .f32) (j : S2000x64.Idx) :
    k0_pay1 (F := Ideal) x0 x1 j = ∑ k : Fin 1024, x0 (lhsB j k) * x1 (rhsB j k) := by
  unfold k0_pay1
  simp only [shapeCast_self, matmul]
  rw [Ideal.matmul_constant_zero_apply, ← Equiv.sum_comp (ValueIdx.contrEquiv1 dot_S2000x1024_S1024x64_S2000x64_1_0_0_1_n_n 1024 rfl rfl).symm]
  refine Finset.sum_congr rfl fun k _ => ?_
  have hk := ValueIdx.contrEquiv1_symm_val dot_S2000x1024_S1024x64_S2000x64_1_0_0_1_n_n 1024 rfl rfl k
  have el : dot_S2000x1024_S1024x64_S2000x64_1_0_0_1_n_n.lhsIdx j ((ValueIdx.contrEquiv1 dot_S2000x1024_S1024x64_S2000x64_1_0_0_1_n_n 1024 rfl rfl).symm k) = lhsB j k := funext fun a => Fin.ext (by
    match a with
    | ⟨0, _⟩ => exact lhs_axis0 _ _
    | ⟨1, _⟩ => exact (lhs_axis1 _ _).trans hk)
  have er : dot_S2000x1024_S1024x64_S2000x64_1_0_0_1_n_n.rhsIdx j ((ValueIdx.contrEquiv1 dot_S2000x1024_S1024x64_S2000x64_1_0_0_1_n_n 1024 rfl rfl).symm k) = rhsB j k := funext fun a => Fin.ext (by
    match a with
    | ⟨0, _⟩ => exact (rhs_axis0 _ _).trans hk
    | ⟨1, _⟩ => exact rhs_axis1 _ _)
  rw [el, er]
  rfl

/-! ## From the blocks to the array -/

variable (V : (c : Dev nD) → (b : Ref sig .tc) → Buf (Elt Ideal) ((c : Thread nD τ).loc b))

/-- The left and the right array as the region finds them, at their literal types. -/
abbrev arrL (c : Dev nD) : FVec Ideal S100000x1024 .f32 := V c main_arg0
abbrev arrR (c : Dev nD) : FVec Ideal S1024x64 .f32 := V c main_v4

theorem hz : (![0, 0] : Fin 2 → Nat) = fun _ => 0 := funext fun a => by fin_cases a <;> rfl

/-- The printed index maps over the 50 grid points: the left window's row block is the output's, its column block 0;
    the right window stays at block (0, 0); the output's column block is 0 and its row block is below 50. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 49 :=
  (by decide +kernel : ∀ t : Fin grid0.N, _)

/-- Every row block is some point's. -/
theorem idx_onto : ∀ q : Fin 50, ∃ t : Fin cfg0.N, win0_2.index t = ![q.val, 0] :=
  (by decide +kernel : ∀ q : Fin 50, ∃ t : Fin grid0.N, win0_2.index t = ![q.val, 0])

/-- What point t writes back is block t of the whole product of the two arrays as the region finds them. -/
theorem flushed_eq (c : Dev nD) (t : Fin cfg0.N) :
    (dat0 V c).flushed 2 t = ((cfg0.win 2).blk t).view.read (Elt Ideal) (prod (arrL V c) (arrR V c)) := by
  show (cfg0.win 2).cut (grid0.coords t) ((dat0 V c).after 2 t) = _
  rw [after0_2]
  unfold out0_2
  rw [View.canon_unit_zero hz]
  simp only [View.ld_unit_zero (S := S2000x1024) hz, View.ld_unit_zero (S := S1024x64) hz]
  obtain ⟨e0, e1, e2, e3, e4, e5⟩ := idx_facts t
  funext j
  refine (pay_apply _ _ j).trans ?_
  show (∑ k : Fin 1024, arrL V c (((cfg0.win 0).blk t).view.emb (lhsB j k)) * arrR V c (((cfg0.win 1).blk t).view.emb (rhsB j k)))
      = ∑ k : Fin 1024, arrL V c (lhsAt (((cfg0.win 2).blk t).view.emb j) k) * arrR V c (rhsAt (((cfg0.win 2).blk t).view.emb j) k)
  refine Finset.sum_congr rfl fun k _ => ?_
  have h0 : ((cfg0.win 0).blk t).view.emb (lhsB j k) = lhsAt (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 1024 + 1 * k.val = k.val; omega
  have h1 : ((cfg0.win 1).blk t).view.emb (rhsB j k) = rhsAt (((cfg0.win 2).blk t).view.emb j) k := by
    funext a; apply Fin.ext
    match a with
    | ⟨0, _⟩ => show win0_1.index t (0 : Fin 2) * 1024 + 1 * k.val = k.val; omega
    | ⟨1, _⟩ => show win0_1.index t (1 : Fin 2) * 64 + 1 * (j 1).val = win0_2.index t (1 : Fin 2) * 64 + 1 * (j 1).val; omega
  rw [h0, h1]

/-- An index of the result array is in point t's block iff each coordinate is in the block's range on its axis. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v5).slice (win0_2.rect t)).set ↔ _
  rw [View.set_slice_whole, Rect.mem_set_unit]
  exact Iff.rfl

/-- The 50 row blocks cover the result: row r is in the block of the point whose row block is r / 2000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The result array after the region is the whole product of the two input arrays as the region finds them. -/
theorem final (c : Dev nD) : (dat0 V c).arrAt 2 cfg0.N = prod (arrL V c) (arrR V c) :=
  (dat0 V c).arrAt_eq_of_cover 2 (prod (arrL V c) (arrR V c)) (fun t _ => flushed_eq V c t) cover

end Cert.KernelIdeal.Linear0

end
-- ==== Proof.Linear1.lean ====
/-
  The second (64 → 32) linear layer's pallas_call, read as a value at the exact extended reals.
  Each grid point t multiplies the 2000-row block t of the left array by the WHOLE right array (its block index is
  (0, 0) at every point) into a zero accumulator, so entry (r, c) of what the point writes back is
      ∑ k, X[2000·t + r, k] · Y[k, c]
  — a change of float format is the identity at this instance, and the unit never sees a partial sum from another point.
  The 50 row blocks tile the 100000-row result, so the array after the region is the whole product  i ↦ ∑ k, X[i₀, k] · Y[k, i₁].
-/
import proofs.«428779_j70832600646051_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Linear1

open Cert.KernelIdeal Cert.KernelIdeal.Gen Idealize.ShloMosaic Idealize.ShloMosaic.TcCoe Idealize.SL.Sem
open Idealize.ShloMosaic.Pipeline (Dat)

/-! ## The product, index by index -/

/-- Entry (i₀, k) of the left array. -/
abbrev lhsAt (i : S100000x32.Idx) (k : Fin 64) : S100000x64.Idx := fun a => match a with
  | ⟨0, _⟩ => ⟨(i 0).val, (i 0).isLt⟩
  | ⟨1, _⟩ => ⟨k.val, k.isLt⟩
/-- Entry (k, i₁) of the right array. -/
abbrev rhsAt (i : S100000x32.Idx) (k : Fin 64) : S64x32.Idx := fun a => match a with
  | ⟨0, _⟩ => ⟨k.val, k.isLt⟩
  | ⟨1, _⟩ => ⟨(i 1).val, (i 1).isLt⟩

/-- The whole product on the extended reals: entry i is the sum over k of X[i₀, k] · Y[k, i₁]. -/
def prod (X : FVec Ideal S100000x64 .f32) (Y : FVec Ideal S64x32 .f32) : FVec Ideal S100000x32 .f32 :=
  fun i => ∑ k : Fin 64, X (lhsAt i k) * Y (rhsAt i k)

/-! ## One block's product -/

/-- Entry (j₀, k) of the left block. -/
abbrev lhsB (j : S2000x32.Idx) (k : Fin 64) : S2000x64.Idx := fun a => match a with
  | ⟨0, _⟩ => ⟨(j 0).val, (j 0).isLt⟩
  | ⟨1, _⟩ => ⟨k.val, k.isLt⟩
/-- Entry (k, j₁) of the right block (the whole right array). -/
abbrev rhsB (j : S2000x32.Idx) (k : Fin 64) : S64x32.Idx := fun a => match a with
  | ⟨0, _⟩ => ⟨k.val, k.isLt⟩
  | ⟨1, _⟩ => ⟨(j 1).val, (j 1).isLt⟩

theorem lhs_axis0 (j : S2000x32.Idx) (q : dot_S2000x64_S64x32_S2000x32_1_0_0_1_n_n.contr.Idx) :
    (dot_S2000x64_S64x32_S2000x32_1_0_0_1_n_n.lhsIdx j q 0).val = (j 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
theorem lhs_axis1 (j : S2000x32.Idx) (q : dot_S2000x64_S64x32_S2000x32_1_0_0_1_n_n.contr.Idx) :
    (dot_S2000x64_S64x32_S2000x32_1_0_0_1_n_n.lhsIdx j q 1).val = (q ⟨0, by decide⟩).val :=
  dot_S2000x64_S64x32_S2000x32_1_0_0_1_n_n.lhsIdx_val_of_single rfl j q
theorem rhs_axis0 (j : S2000x32.Idx) (q : dot_S2000x64_S64x32_S2000x32_1_0_0_1_n_n.contr.Idx) :
    (dot_S2000x64_S64x32_S2000x32_1_0_0_1_n_n.rhsIdx j q 0).val = (q ⟨0, by decide⟩).val :=
  dot_S2000x64_S64x32_S2000x32_1_0_0_1_n_n.rhsIdx_val_of_single rfl j q
theorem rhs_axis1 (j : S2000x32.Idx) (q : dot_S2000x64_S64x32_S2000x32_1_0_0_1_n_n.contr.Idx) :
    (dot_S2000x64_S64x32_S2000x32_1_0_0_1_n_n.rhsIdx j q 1).val = (j 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

/-- The body's payload at an entry of the output block: the matrix unit's product into the zero accumulator is the plain
    sum over the contraction index; the two format changes and the same-shape casts are identities here. -/
theorem pay_apply (x0 : FVec Ideal S2000x64 .f32) (x1 : FVec Ideal S64x32 .f32) (j : S2000x32.Idx) :
    k1_pay1 (F := Ideal) x0 x1 j = ∑ k : Fin 64, x0 (lhsB j k) * x1 (rhsB j k) := by
  unfold k1_pay1
  simp only [shapeCast_self, matmul]
  rw [Ideal.matmul_constant_zero_apply, ← Equiv.sum_comp (ValueIdx.contrEquiv1 dot_S2000x64_S64x32_S2000x32_1_0_0_1_n_n 64 rfl rfl).symm]
  refine Finset.sum_congr rfl fun k _ => ?_
  have hk := ValueIdx.contrEquiv1_symm_val dot_S2000x64_S64x32_S2000x32_1_0_0_1_n_n 64 rfl rfl k
  have el : dot_S2000x64_S64x32_S2000x32_1_0_0_1_n_n.lhsIdx j ((ValueIdx.contrEquiv1 dot_S2000x64_S64x32_S2000x32_1_0_0_1_n_n 64 rfl rfl).symm k) = lhsB j k := funext fun a => Fin.ext (by
    match a with
    | ⟨0, _⟩ => exact lhs_axis0 _ _
    | ⟨1, _⟩ => exact (lhs_axis1 _ _).trans hk)
  have er : dot_S2000x64_S64x32_S2000x32_1_0_0_1_n_n.rhsIdx j ((ValueIdx.contrEquiv1 dot_S2000x64_S64x32_S2000x32_1_0_0_1_n_n 64 rfl rfl).symm k) = rhsB j k := funext fun a => Fin.ext (by
    match a with
    | ⟨0, _⟩ => exact (rhs_axis0 _ _).trans hk
    | ⟨1, _⟩ => exact rhs_axis1 _ _)
  rw [el, er]
  rfl

/-! ## From the blocks to the array -/

variable (V : (c : Dev nD) → (b : Ref sig .tc) → Buf (Elt Ideal) ((c : Thread nD τ).loc b))

/-- The left and the right array as the region finds them, at their literal types. -/
abbrev arrL (c : Dev nD) : FVec Ideal S100000x64 .f32 := V c main_v13
abbrev arrR (c : Dev nD) : FVec Ideal S64x32 .f32 := V c main_v14

theorem hz : (![0, 0] : Fin 2 → Nat) = fun _ => 0 := funext fun a => by fin_cases a <;> rfl

/-- The printed index maps over the 50 grid points: the left window's row block is the output's, its column block 0;
    the right window stays at block (0, 0); the output's column block is 0 and its row block is below 50. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 49 :=
  (by decide +kernel : ∀ t : Fin grid1.N, _)

/-- Every row block is some point's. -/
theorem idx_onto : ∀ q : Fin 50, ∃ t : Fin cfg1.N, win1_2.index t = ![q.val, 0] :=
  (by decide +kernel : ∀ q : Fin 50, ∃ t : Fin grid1.N, win1_2.index t = ![q.val, 0])

/-- What point t writes back is block t of the whole product of the two arrays as the region finds them. -/
theorem flushed_eq (c : Dev nD) (t : Fin cfg1.N) :
    (dat1 V c).flushed 2 t = ((cfg1.win 2).blk t).view.read (Elt Ideal) (prod (arrL V c) (arrR V c)) := by
  show (cfg1.win 2).cut (grid1.coords t) ((dat1 V c).after 2 t) = _
  rw [after1_2]
  unfold out1_2
  rw [View.canon_unit_zero hz]
  simp only [View.ld_unit_zero (S := S2000x64) hz, View.ld_unit_zero (S := S64x32) hz]
  obtain ⟨e0, e1, e2, e3, e4, e5⟩ := idx_facts t
  funext j
  refine (pay_apply _ _ j).trans ?_
  show (∑ k : Fin 64, arrL V c (((cfg1.win 0).blk t).view.emb (lhsB j k)) * arrR V c (((cfg1.win 1).blk t).view.emb (rhsB j k)))
      = ∑ k : Fin 64, arrL V c (lhsAt (((cfg1.win 2).blk t).view.emb j) k) * arrR V c (rhsAt (((cfg1.win 2).blk t).view.emb j) k)
  refine Finset.sum_congr rfl fun k _ => ?_
  have h0 : ((cfg1.win 0).blk t).view.emb (lhsB j k) = lhsAt (((cfg1.win 2).blk t).view.emb j) k := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 64 + 1 * k.val = k.val; omega
  have h1 : ((cfg1.win 1).blk t).view.emb (rhsB j k) = rhsAt (((cfg1.win 2).blk t).view.emb j) k := by
    funext a; apply Fin.ext
    match a with
    | ⟨0, _⟩ => show win1_1.index t (0 : Fin 2) * 64 + 1 * k.val = k.val; omega
    | ⟨1, _⟩ => show win1_1.index t (1 : Fin 2) * 32 + 1 * (j 1).val = win1_2.index t (1 : Fin 2) * 32 + 1 * (j 1).val; omega
  rw [h0, h1]

/-- An index of the result array is in point t's block iff each coordinate is in the block's range on its axis. -/
theorem mem_blk (t : Fin cfg1.N) (i : S100000x32.Idx) :
    i ∈ ((cfg1.win 2).blk t).view.set ↔ ∀ a : Fin 2, win1_2.index t a * S2000x32.size a ≤ (i a).val ∧ (i a).val < win1_2.index t a * S2000x32.size a + S2000x32.size a := by
  show i ∈ ((View.whole main_v15).slice (win1_2.rect t)).set ↔ _
  rw [View.set_slice_whole, Rect.mem_set_unit]
  exact Iff.rfl

/-- The 50 row blocks cover the result: row r is in the block of the point whose row block is r / 2000. -/
theorem cover (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 32 ≤ (i 1).val ∧ (i 1).val < win1_2.index t (1 : Fin 2) * 32 + 32; omega

/-- The result array after the region is the whole product of the two input arrays as the region finds them. -/
theorem final (c : Dev nD) : (dat1 V c).arrAt 2 cfg1.N = prod (arrL V c) (arrR V c) :=
  (dat1 V c).arrAt_eq_of_cover 2 (prod (arrL V c) (arrR V c)) (fun t _ => flushed_eq V c t) cover

end Cert.KernelIdeal.Linear1

end
-- ==== Proof.IdxRange.lean ====
/-
  NumPy-style negative-index wrapping of a 32-bit signed word that lies in [-N, N), N = 100000:
  the wrapped word  w = (s < 0 ? s + N : s)  lies in [0, N - 1].  Stated over the integer comparison
  words exactly as the programs print them (the words `-N`, `N`, `0`, `N - 1` as two's-complement literals).
-/
import Idealize.ShloMosaic.Lib.Affine

namespace Cert.Hand.IdxRange

open Idealize.ShloMosaic

/-- A sum of integers inside the signed 32-bit range is its own balanced residue mod 2³². -/
theorem bmod_id {n : Int} (h₁ : -2 ^ 31 ≤ n) (h₂ : n < 2 ^ 31) : n.bmod (2 ^ 32) = n :=
  Int.bmod_eq_of_le (by omega) (by omega)

theorem toInt_negN : (4294867296#32 : BitVec 32).toInt = -100000 := by decide
theorem toInt_N : (100000#32 : BitVec 32).toInt = 100000 := by decide
theorem toInt_zero : (0#32 : BitVec 32).toInt = 0 := by decide
theorem toInt_Nm1 : (99999#32 : BitVec 32).toInt = 99999 := by decide

/-- The wrapped index of a word in [-N, N) is in [0, N - 1]: below zero the word plus N (no overflow: the sum is
    in [0, N - 1]), otherwise the word itself. -/
theorem wrap_inRange (s : BitVec 32)
    (hlo : IntOp.cmpi .sge s 4294867296#32 = 1#1) (hhi : IntOp.cmpi .slt s 100000#32 = 1#1) :
    IntOp.cmpi .sge (Scalar.select (IntOp.cmpi .slt s 0#32) (IntOp.addi s 100000#32) s) 0#32 = 1#1
      ∧ IntOp.cmpi .sle (Scalar.select (IntOp.cmpi .slt s 0#32) (IntOp.addi s 100000#32) s) 99999#32 = 1#1 := by
  rw [IntOp.cmpi_sge, toInt_negN] at hlo
  rw [IntOp.cmpi_slt, toInt_N] at hhi
  by_cases hneg : IntOp.cmpi .slt s 0#32 = 1#1
  · have hs : s.toInt < 0 := by rw [IntOp.cmpi_slt, toInt_zero] at hneg; exact hneg
    have hadd : (IntOp.addi s 100000#32).toInt = s.toInt + 100000 := by
      rw [IntOp.addi, BitVec.toInt_add, toInt_N]; exact bmod_id (by omega) (by omega)
    rw [Scalar.select, if_pos (show IntOp.cmpi .slt s 0#32 = 1 from hneg), IntOp.cmpi_sge, IntOp.cmpi_sle, toInt_zero, toInt_Nm1, hadd]
    omega
  · have hs : ¬ s.toInt < 0 := by rw [IntOp.cmpi_slt, toInt_zero] at hneg; exact hneg
    rw [Scalar.select, if_neg (show ¬ IntOp.cmpi .slt s 0#32 = 1 from hneg), IntOp.cmpi_sge, IntOp.cmpi_sle, toInt_zero, toInt_Nm1]
    omega

end Cert.Hand.IdxRange
-- ==== Proof.Take.lean ====
/-
  jnp.take at its default mode, as the kernel's @main spells it: the index word is wrapped NumPy-style
  (s < 0 ? s + N : s), the wrapped word is tested for 0 ≤ w ≤ N - 1, rows whose test fails are filled with a NaN and the
  others are gathered. When every index word lies in [-N, N) (N = 100000 rows) every test passes, so the fill never
  shows and the result IS the gather at the wrapped index — which is all that x[idx] computes.
-/
import proofs.«428779_j70832600646051_1_alg».proof.KernelIdeal
import proofs.«428779_j70832600646051_1_alg».proof.Proof.IdxRange
import Idealize.ShloMosaic.Lib.Affine
import Idealize.ShloMosaic.Lib.Pipeline.Value
import Idealize.ShloMosaic.PureOps.Reduce

noncomputable section

namespace Cert.KernelIdeal.Take

open Cert.KernelIdeal Idealize.ShloMosaic
open Facts₀ Facts

variable [Facts]
variable {F : FTy → Type} [FloatOps F]

/-! ## Generalities -/

/-- A fold by `and` from 1 over words that are all 1 is 1. -/
theorem foldl_andi_ones {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_ones f hf l

/-- A reduce by `and` from the constant 1 of an array of ones is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_ones x hx _

/-- Selecting by a mask of ones takes the first operand. -/
theorem select_ones {s : Shape} {α : Type} (c : IVec s 1) (hc : ∀ i, c i = 1#1) (a b : s.Idx → α) : select c a b = a := by
  funext i
  show Scalar.select (c i) (a i) (b i) = a i
  rw [hc i]
  rfl

/-! ## The index column and its range test, as printed -/

/-- The wrapped index words as an [E × 1] column: below zero the word plus N, otherwise the word. -/
def wrapIdx (s : IVec S3200000 32) : IVec S3200000x1 32 :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

/-- The range test of an index column, per row: 0 ≤ w and w ≤ N - 1, reduced by `and` along the unit axis. -/
def inBounds (idx : IVec S3200000x1 32) : IVec S3200000 1 :=
  Host.reduce IntOp.andi
    (andi (cmpi .sge idx (broadcastInDim S3200000x1 ![] bcast_S_S3200000x1 (constantI S_ 32 0#32)))
      (cmpi .sle idx (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- Row p of the index vector, as the index of the column's entry (p, 0). -/
abbrev rowOf (j : S3200000x1.Idx) : S3200000.Idx := fun a => match a with
  | ⟨0, _⟩ => ⟨(j 0).val, (j 0).isLt⟩

/-- The column at (p, 0) is the wrapped word of row p. -/
theorem wrapIdx_apply (s : IVec S3200000 32) (j : S3200000x1.Idx) :
    wrapIdx s j = Scalar.select (IntOp.cmpi .slt (s (rowOf j)) 0#32) (IntOp.addi (s (rowOf j)) 100000#32) (s (rowOf j)) := by
  unfold wrapIdx
  rw [broadcastInDim_apply ![0] bcast_S3200000_S3200000x1_0 _ j (rowOf j) (fun a => by
    match a with
    | ⟨0, _⟩ => show (j 0).val = if (3200000 : Nat) = 1 then 0 else (j 0).val; rw [if_neg (by decide)])]
  rfl

/-- With every index word in [-N, N), every row passes the range test. -/
theorem inBounds_wrapIdx (s : IVec S3200000 32)
    (hs : ∀ e : S3200000.Idx, IntOp.cmpi .sge (s e) 4294867296#32 = 1#1 ∧ IntOp.cmpi .slt (s e) 100000#32 = 1#1) (p : S3200000.Idx) :
    inBounds (wrapIdx s) p = 1#1 := by
  unfold inBounds
  refine reduce_andi_ones _ _ _ _ (fun j => ?_) (fun _ => rfl) p
  show IntOp.andi (IntOp.cmpi .sge (wrapIdx s j) 0#32) (IntOp.cmpi .sle (wrapIdx s j) 99999#32) = 1#1
  rw [wrapIdx_apply]
  obtain ⟨h1, h2⟩ := Cert.Hand.IdxRange.wrap_inRange (s (rowOf j)) (hs _).1 (hs _).2
  exact IntOp.andi_eq_one.2 ⟨h1, h2⟩

/-! ## The two takes -/

/-- The 64-wide take: the mask is all ones, so the NaN fill never shows. -/
theorem take64 (h : FVec F S100000x64 .f32) (s : IVec S3200000 32)
    (hs : ∀ e : S3200000.Idx, IntOp.cmpi .sge (s e) 4294867296#32 = 1#1 ∧ IntOp.cmpi .slt (s e) 100000#32 = 1#1) :
    select (broadcastInDim S3200000x64 ![0] bcast_S3200000_S3200000x64_0 (inBounds (wrapIdx s)))
        (Host.gather gather_S100000x64_S3200000x1_S3200000x64_1_0_n_n_0_1_164 h (wrapIdx s))
        (broadcastInDim S3200000x64 ![] bcast_S_S3200000x64 (constant (F := F) S_ .f32 0x7FC00000#32))
      = Host.gather gather_S100000x64_S3200000x1_S3200000x64_1_0_n_n_0_1_164 h (wrapIdx s) :=
  select_ones _ (fun i => inBounds_wrapIdx s hs _) _ _

/-- The 32-wide take, likewise. -/
theorem take32 (h : FVec F S100000x32 .f32) (s : IVec S3200000 32)
    (hs : ∀ e : S3200000.Idx, IntOp.cmpi .sge (s e) 4294867296#32 = 1#1 ∧ IntOp.cmpi .slt (s e) 100000#32 = 1#1) :
    select (broadcastInDim S3200000x32 ![0] bcast_S3200000_S3200000x32_0 (inBounds (wrapIdx s)))
        (Host.gather gather_S100000x32_S3200000x1_S3200000x32_1_0_n_n_0_1_132 h (wrapIdx s))
        (broadcastInDim S3200000x32 ![] bcast_S_S3200000x32 (constant (F := F) S_ .f32 0x7FC00000#32))
      = Host.gather gather_S100000x32_S3200000x1_S3200000x32_1_0_n_n_0_1_132 h (wrapIdx s) :=
  select_ones _ (fun i => inBounds_wrapIdx s hs _) _ _

end Cert.KernelIdeal.Take

end
-- ==== Proof.KernelValue.lean ====
/-
  The kernel program's result as ONE function of its arguments, at the exact extended reals.
  @main is: slice the edge list into source and destination words, transpose W1; the first linear layer's region
  (Linear0: the whole product X · W1ᵀ); take the rows at the wrapped source indices (NaN-filling out-of-range ones),
  scatter-add them into the destination nodes, add the bias, relu; transpose W2; the second linear layer's region
  (Linear1); take, scatter-add and bias again. The buffer contents at each boundary are a fold through these
  stretches; read back at the result buffer they compose to  layer₂ (H₁ · W2ᵀ),  H₁ = relu (layer₁ (X · W1ᵀ)).
-/
import proofs.«428779_j70832600646051_1_alg».proof.Proof.Gen.KernelIdeal.Frame
import proofs.«428779_j70832600646051_1_alg».proof.Proof.Linear0
import proofs.«428779_j70832600646051_1_alg».proof.Proof.Linear1
import proofs.«428779_j70832600646051_1_alg».proof.Proof.Take
import Idealize.ShloMosaic.Lib.StableHlo.Run
import Idealize.ShloMosaic.PureOps.Ideal.Laws

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo

variable {F : FTy → Type} [FloatOps F]

/-! ## The host chains, named once -/

/-- Row 0 of the edge list: the source-node index words. -/
def srcOf (e : IVec S2x3200000 32) : IVec S3200000 32 :=
  shapeCast S3200000 (extractStridedSlice S1x3200000 ![0, 0] e slices_S2x3200000_S1x3200000_0_0) shapeCasts_S1x3200000_S3200000
/-- Row 1 of the edge list: the destination-node index words. -/
def dstOf (e : IVec S2x3200000 32) : IVec S3200000 32 :=
  shapeCast S3200000 (extractStridedSlice S1x3200000 ![1, 0] e slices_S2x3200000_S1x3200000_1_0) shapeCasts_S1x3200000_S3200000

/-- Layer 1 after its linear map, as @main spells it: the NaN-filling take of the rows at the wrapped source words,
    their scatter-add into the destination nodes from zero, plus the bias along each row. -/
def agg64 (h : FVec F S100000x64 .f32) (s d : IVec S3200000 32) (b : FVec F S64 .f32) : FVec F S100000x64 .f32 :=
  addf
    (Host.scatterAdd scatter_S100000x64_S3200000x1_S3200000x64_1_0_0_1
      (broadcastInDim S100000x64 ![] bcast_S_S100000x64 (constant S_ .f32 0x00000000#32))
      (broadcastInDim S3200000x1 ![0] bcast_S3200000_S3200000x1_0 d)
      (select (broadcastInDim S3200000x64 ![0] bcast_S3200000_S3200000x64_0 (Take.inBounds (Take.wrapIdx s)))
        (Host.gather gather_S100000x64_S3200000x1_S3200000x64_1_0_n_n_0_1_164 h (Take.wrapIdx s))
        (broadcastInDim S3200000x64 ![] bcast_S_S3200000x64 (constant S_ .f32 0x7FC00000#32))))
    (broadcastInDim S100000x64 ![0, 1] bcast_S1x64_S100000x64_0_1 (broadcastInDim S1x64 ![1] bcast_S64_S1x64_1 b))

/-- The relu between the layers: the maximum with zero. -/
def relu64 (x : FVec F S100000x64 .f32) : FVec F S100000x64 .f32 :=
  maximumf x (broadcastInDim S100000x64 ![] bcast_S_S100000x64 (constant S_ .f32 0x00000000#32))

/-- Layer 2 after its linear map, likewise, 32 wide. -/
def agg32 (h : FVec F S100000x32 .f32) (s d : IVec S3200000 32) (b : FVec F S32 .f32) : FVec F S100000x32 .f32 :=
  addf
    (Host.scatterAdd scatter_S100000x32_S3200000x1_S3200000x32_1_0_0_1
      (broadcastInDim S100000x32 ![] bcast_S_S100000x32 (constant S_ .f32 0x00000000#32))
      (broadcastInDim S3200000x1 ![0] bcast_S3200000_S3200000x1_0 d)
      (select (broadcastInDim S3200000x32 ![0] bcast_S3200000_S3200000x32_0 (Take.inBounds (Take.wrapIdx s)))
        (Host.gather gather_S100000x32_S3200000x1_S3200000x32_1_0_n_n_0_1_132 h (Take.wrapIdx s))
        (broadcastInDim S3200000x32 ![] bcast_S_S3200000x32 (constant S_ .f32 0x7FC00000#32))))
    (broadcastInDim S100000x32 ![0, 1] bcast_S1x32_S100000x32_0_1 (broadcastInDim S1x32 ![1] bcast_S32_S1x32_1 b))

/-! ## Each host stretch, from any entry contents -/

/-- Reading back through a typed reference what was written through it gives the value written (an outlined function's
    operations write their buffers through a transport along the buffer's type equation and read them back through its
    inverse). -/
theorem ofBuf_toBuf {Val : EltTy → Type} {T : BufTy} (x : StableHlo.TRef sig T) (v : T.Contents Val) : x.ofBuf (x.toBuf v) = v := by
  obtain ⟨r, h, _, _⟩ := x
  subst h
  rfl

/-- A buffer's contents read at the tensor type its value has. -/
abbrev rd {T : BufTy} (x : StableHlo.TRef sig T) (W : Valuation τ sig (Elt Ideal)) : T.Contents (Elt Ideal) :=
  x.ofBuf (W (Proc.devRef .tc x.ref))
/-- That transport is the identity: the two types are one type. -/
theorem rd_heq {T : BufTy} (x : StableHlo.TRef sig T) (W : Valuation τ sig (Elt Ideal)) : HEq (rd x W) (W (Proc.devRef .tc x.ref)) :=
  cast_heq _ _

/-- The take of 64-wide rows (the 23 operations of the outlined jnp.take), as printed: wrapped index column, range
    test, gather, NaN fill, select. -/
def take64 (h : FVec Ideal S100000x64 .f32) (s : IVec S3200000 32) : FVec Ideal S3200000x64 .f32 :=
  select (broadcastInDim S3200000x64 ![0] bcast_S3200000_S3200000x64_0 (Take.inBounds (Take.wrapIdx s)))
    (Host.gather gather_S100000x64_S3200000x1_S3200000x64_1_0_n_n_0_1_164 h (Take.wrapIdx s))
    (broadcastInDim S3200000x64 ![] bcast_S_S3200000x64 (constant (F := Ideal) S_ .f32 0x7FC00000#32))
/-- The take of 32-wide rows, likewise. -/
def take32 (h : FVec Ideal S100000x32 .f32) (s : IVec S3200000 32) : FVec Ideal S3200000x32 .f32 :=
  select (broadcastInDim S3200000x32 ![0] bcast_S3200000_S3200000x32_0 (Take.inBounds (Take.wrapIdx s)))
    (Host.gather gather_S100000x32_S3200000x1_S3200000x32_1_0_n_n_0_1_132 h (Take.wrapIdx s))
    (broadcastInDim S3200000x32 ![] bcast_S_S3200000x32 (constant (F := Ideal) S_ .f32 0x7FC00000#32))

section Stretches
variable (V : Valuation τ sig (Elt Ideal))

/-- The first take's stretch leaves, in main_v6, the take of main_v5's rows at main_v1's words. -/
theorem take64_read : rd (.of main_v6 : StableHlo.TRef sig ⟨S3200000x64, .f32⟩) (StableHlo.after hostOps1 V)
    = take64 (rd (.of main_v5 : StableHlo.TRef sig ⟨S100000x64, .f32⟩) V) (rd (.of main_v1 : StableHlo.TRef sig ⟨S3200000, .i32⟩) V) := by
  unfold take64 Take.inBounds Take.wrapIdx
  dsimp only [rd]; after_results_simp
  simp only [ofBuf_toBuf]
theorem take64_keep_v3 : StableHlo.after hostOps1 V (Proc.devRef .tc main_v3) = V (Proc.devRef .tc main_v3) := by after_results_simp
theorem take64_keep_v1 : StableHlo.after hostOps1 V (Proc.devRef .tc main_v1) = V (Proc.devRef .tc main_v1) := by after_results_simp
theorem take64_keep_arg2 : StableHlo.after hostOps1 V (Proc.devRef .tc main_arg2) = V (Proc.devRef .tc main_arg2) := by after_results_simp
theorem take64_keep_arg3 : StableHlo.after hostOps1 V (Proc.devRef .tc main_arg3) = V (Proc.devRef .tc main_arg3) := by after_results_simp
theorem take64_keep_arg4 : StableHlo.after hostOps1 V (Proc.devRef .tc main_arg4) = V (Proc.devRef .tc main_arg4) := by after_results_simp

/-- The scatter-add and bias stretch of layer 1. -/
theorem agg64_read : StableHlo.after hostOps1_1 V (Proc.devRef .tc main_v12)
    = addf
        (Host.scatterAdd scatter_S100000x64_S3200000x1_S3200000x64_1_0_0_1
          (broadcastInDim S100000x64 ![] bcast_S_S100000x64 (constant (F := Ideal) S_ .f32 0x00000000#32))
          (broadcastInDim S3200000x1 ![0] bcast_S3200000_S3200000x1_0 (V (Proc.devRef .tc main_v3)))
          (V (Proc.devRef .tc main_v6)))
        (broadcastInDim S100000x64 ![0, 1] bcast_S1x64_S100000x64_0_1 (broadcastInDim S1x64 ![1] bcast_S64_S1x64_1 (V (Proc.devRef .tc main_arg2)))) := by
  after_results_simp <;> rfl
theorem agg64_keep_v1 : StableHlo.after hostOps1_1 V (Proc.devRef .tc main_v1) = V (Proc.devRef .tc main_v1) := by after_results_simp
theorem agg64_keep_v3 : StableHlo.after hostOps1_1 V (Proc.devRef .tc main_v3) = V (Proc.devRef .tc main_v3) := by after_results_simp
theorem agg64_keep_arg3 : StableHlo.after hostOps1_1 V (Proc.devRef .tc main_arg3) = V (Proc.devRef .tc main_arg3) := by after_results_simp
theorem agg64_keep_arg4 : StableHlo.after hostOps1_1 V (Proc.devRef .tc main_arg4) = V (Proc.devRef .tc main_arg4) := by after_results_simp

/-- The relu's stretch. -/
theorem relu_read : rd (.of main_v13 : StableHlo.TRef sig ⟨S100000x64, .f32⟩) (StableHlo.after hostOps1_2 V)
    = relu64 (F := Ideal) (rd (.of main_v12 : StableHlo.TRef sig ⟨S100000x64, .f32⟩) V) := by
  unfold relu64
  dsimp only [rd]; after_results_simp
  simp only [ofBuf_toBuf]
theorem relu_keep_v1 : StableHlo.after hostOps1_2 V (Proc.devRef .tc main_v1) = V (Proc.devRef .tc main_v1) := by after_results_simp
theorem relu_keep_v3 : StableHlo.after hostOps1_2 V (Proc.devRef .tc main_v3) = V (Proc.devRef .tc main_v3) := by after_results_simp
theorem relu_keep_arg3 : StableHlo.after hostOps1_2 V (Proc.devRef .tc main_arg3) = V (Proc.devRef .tc main_arg3) := by after_results_simp
theorem relu_keep_arg4 : StableHlo.after hostOps1_2 V (Proc.devRef .tc main_arg4) = V (Proc.devRef .tc main_arg4) := by after_results_simp

/-- The second weight's transpose. -/
theorem tr2_read : StableHlo.after hostOps1_3 V (Proc.devRef .tc main_v14)
    = transpose S64x32 [1, 0] (V (Proc.devRef .tc main_arg3)) transposes_S32x64_S64x32_1_0 := by
  after_results_simp <;> rfl
theorem tr2_keep_v13 : StableHlo.after hostOps1_3 V (Proc.devRef .tc main_v13) = V (Proc.devRef .tc main_v13) := by after_results_simp
theorem tr2_keep_v1 : StableHlo.after hostOps1_3 V (Proc.devRef .tc main_v1) = V (Proc.devRef .tc main_v1) := by after_results_simp
theorem tr2_keep_v3 : StableHlo.after hostOps1_3 V (Proc.devRef .tc main_v3) = V (Proc.devRef .tc main_v3) := by after_results_simp
theorem tr2_keep_arg4 : StableHlo.after hostOps1_3 V (Proc.devRef .tc main_arg4) = V (Proc.devRef .tc main_arg4) := by after_results_simp

/-- The second take's stretch leaves, in main_v16, the take of main_v15's rows at main_v1's words. -/
theorem take32_read : rd (.of main_v16 : StableHlo.TRef sig ⟨S3200000x32, .f32⟩) (StableHlo.after hostOps2 V)
    = take32 (rd (.of main_v15 : StableHlo.TRef sig ⟨S100000x32, .f32⟩) V) (rd (.of main_v1 : StableHlo.TRef sig ⟨S3200000, .i32⟩) V) := by
  unfold take32 Take.inBounds Take.wrapIdx
  dsimp only [rd]; after_results_simp
  simp only [ofBuf_toBuf]
theorem take32_keep_v3 : StableHlo.after hostOps2 V (Proc.devRef .tc main_v3) = V (Proc.devRef .tc main_v3) := by after_results_simp
theorem take32_keep_arg4 : StableHlo.after hostOps2 V (Proc.devRef .tc main_arg4) = V (Proc.devRef .tc main_arg4) := by after_results_simp

/-- The scatter-add and bias stretch of layer 2. -/
theorem agg32_read : StableHlo.after hostOps2_1 V (Proc.devRef .tc main_v22)
    = addf
        (Host.scatterAdd scatter_S100000x32_S3200000x1_S3200000x32_1_0_0_1
          (broadcastInDim S100000x32 ![] bcast_S_S100000x32 (constant (F := Ideal) S_ .f32 0x00000000#32))
          (broadcastInDim S3200000x1 ![0] bcast_S3200000_S3200000x1_0 (V (Proc.devRef .tc main_v3)))
          (V (Proc.devRef .tc main_v16)))
        (broadcastInDim S100000x32 ![0, 1] bcast_S1x32_S100000x32_0_1 (broadcastInDim S1x32 ![1] bcast_S32_S1x32_1 (V (Proc.devRef .tc main_arg4)))) := by
  after_results_simp <;> rfl

end Stretches

/-! ## The fold, boundary by boundary -/

variable (m : (ℓ : Loc nD τ sig) → Buf (Elt Ideal) ℓ) (ρ : Dev nD → PrngReg)

/-- Before the first region: the sliced index words, the transposed weight, and the untouched arguments. -/
theorem W1_v1 (c : Dev nD) : W1 m ρ c (Proc.devRef .tc main_v1) = srcOf (m ((c : Thread nD τ).loc main_arg5)) := by
  dsimp only [W1, W0]; after_results_simp <;> rfl
theorem W1_v3 (c : Dev nD) : W1 m ρ c (Proc.devRef .tc main_v3) = dstOf (m ((c : Thread nD τ).loc main_arg5)) := by
  dsimp only [W1, W0]; after_results_simp <;> rfl
theorem W1_v4 (c : Dev nD) : W1 m ρ c (Proc.devRef .tc main_v4)
    = transpose S1024x64 [1, 0] (m ((c : Thread nD τ).loc main_arg1)) transposes_S64x1024_S1024x64_1_0 := by
  dsimp only [W1, W0]; after_results_simp <;> rfl
theorem W1_arg0 (c : Dev nD) : W1 m ρ c (Proc.devRef .tc main_arg0) = m ((c : Thread nD τ).loc main_arg0) := by
  dsimp only [W1, W0]; after_results_simp <;> rfl
theorem W1_arg2 (c : Dev nD) : W1 m ρ c (Proc.devRef .tc main_arg2) = m ((c : Thread nD τ).loc main_arg2) := by
  dsimp only [W1, W0]; after_results_simp <;> rfl
theorem W1_arg3 (c : Dev nD) : W1 m ρ c (Proc.devRef .tc main_arg3) = m ((c : Thread nD τ).loc main_arg3) := by
  dsimp only [W1, W0]; after_results_simp <;> rfl
theorem W1_arg4 (c : Dev nD) : W1 m ρ c (Proc.devRef .tc main_arg4) = m ((c : Thread nD τ).loc main_arg4) := by
  dsimp only [W1, W0]; after_results_simp <;> rfl

/-- After the first region its result array is the whole product; every other buffer is as it was. -/
theorem W2_v5 (c : Dev nD) : W2 m ρ c (Proc.devRef .tc main_v5)
    = Linear0.prod (W1 m ρ c (Proc.devRef .tc main_arg0)) (W1 m ρ c (Proc.devRef .tc main_v4)) :=
  (W2_arr m ρ c 2).trans (Linear0.final (V1 m ρ) c)
theorem W2_v1 (c : Dev nD) : W2 m ρ c (Proc.devRef .tc main_v1) = W1 m ρ c (Proc.devRef .tc main_v1) := W2_of_ne m ρ c main_v1 (by decide)
theorem W2_v3 (c : Dev nD) : W2 m ρ c (Proc.devRef .tc main_v3) = W1 m ρ c (Proc.devRef .tc main_v3) := W2_of_ne m ρ c main_v3 (by decide)
theorem W2_arg2 (c : Dev nD) : W2 m ρ c (Proc.devRef .tc main_arg2) = W1 m ρ c (Proc.devRef .tc main_arg2) := W2_of_ne m ρ c main_arg2 (by decide)
theorem W2_arg3 (c : Dev nD) : W2 m ρ c (Proc.devRef .tc main_arg3) = W1 m ρ c (Proc.devRef .tc main_arg3) := W2_of_ne m ρ c main_arg3 (by decide)
theorem W2_arg4 (c : Dev nD) : W2 m ρ c (Proc.devRef .tc main_arg4) = W1 m ρ c (Proc.devRef .tc main_arg4) := W2_of_ne m ρ c main_arg4 (by decide)

/-- After the first take (the cast-free reading of `take64_read` at the first region's exit contents). -/
theorem W3_v6 (c : Dev nD) : W3 m ρ c (Proc.devRef .tc main_v6)
    = take64 (W2 m ρ c (Proc.devRef .tc main_v5)) (W2 m ρ c (Proc.devRef .tc main_v1)) := by
  have h := take64_read (W2 m ρ c)
  rw [eq_of_heq (rd_heq (.of main_v6 : StableHlo.TRef sig ⟨S3200000x64, .f32⟩) (StableHlo.after hostOps1 (W2 m ρ c))),
    eq_of_heq (rd_heq (.of main_v5 : StableHlo.TRef sig ⟨S100000x64, .f32⟩) (W2 m ρ c)),
    eq_of_heq (rd_heq (.of main_v1 : StableHlo.TRef sig ⟨S3200000, .i32⟩) (W2 m ρ c))] at h
  exact h

/-- After layer 1's scatter-add and bias. -/
theorem W4_v12 (c : Dev nD) : W4 m ρ c (Proc.devRef .tc main_v12)
    = agg64 (F := Ideal) (W2 m ρ c (Proc.devRef .tc main_v5)) (W2 m ρ c (Proc.devRef .tc main_v1)) (W2 m ρ c (Proc.devRef .tc main_v3))
        (W2 m ρ c (Proc.devRef .tc main_arg2)) := by
  have h := agg64_read (W3 m ρ c)
  rw [show W3 m ρ c (Proc.devRef .tc main_v6) = _ from W3_v6 m ρ c,
    show W3 m ρ c (Proc.devRef .tc main_v3) = _ from take64_keep_v3 (W2 m ρ c),
    show W3 m ρ c (Proc.devRef .tc main_arg2) = _ from take64_keep_arg2 (W2 m ρ c)] at h
  exact h

/-- After the relu: the hidden layer. -/
theorem W5_v13 (c : Dev nD) : W5 m ρ c (Proc.devRef .tc main_v13)
    = relu64 (F := Ideal) (W4 m ρ c (Proc.devRef .tc main_v12)) := by
  have h := relu_read (W4 m ρ c)
  rw [eq_of_heq (rd_heq (.of main_v13 : StableHlo.TRef sig ⟨S100000x64, .f32⟩) (StableHlo.after hostOps1_2 (W4 m ρ c))),
    eq_of_heq (rd_heq (.of main_v12 : StableHlo.TRef sig ⟨S100000x64, .f32⟩) (W4 m ρ c))] at h
  exact h

/-- At the second region's entry: the hidden layer, the transposed second weight, and what the stretches keep. -/
theorem W6_v13 (c : Dev nD) : W6 m ρ c (Proc.devRef .tc main_v13)
    = relu64 (F := Ideal) (agg64 (F := Ideal) (W2 m ρ c (Proc.devRef .tc main_v5)) (W2 m ρ c (Proc.devRef .tc main_v1)) (W2 m ρ c (Proc.devRef .tc main_v3))
        (W2 m ρ c (Proc.devRef .tc main_arg2))) :=
  (tr2_keep_v13 (W5 m ρ c)).trans ((W5_v13 m ρ c).trans (congrArg (relu64 (F := Ideal)) (W4_v12 m ρ c)))
theorem W6_v14 (c : Dev nD) : W6 m ρ c (Proc.devRef .tc main_v14)
    = transpose S64x32 [1, 0] (W2 m ρ c (Proc.devRef .tc main_arg3)) transposes_S32x64_S64x32_1_0 := by
  have h := tr2_read (W5 m ρ c)
  rw [show W5 m ρ c (Proc.devRef .tc main_arg3) = _ from relu_keep_arg3 (W4 m ρ c),
    show W4 m ρ c (Proc.devRef .tc main_arg3) = _ from agg64_keep_arg3 (W3 m ρ c),
    show W3 m ρ c (Proc.devRef .tc main_arg3) = _ from take64_keep_arg3 (W2 m ρ c)] at h
  exact h
theorem W6_v1 (c : Dev nD) : W6 m ρ c (Proc.devRef .tc main_v1) = W2 m ρ c (Proc.devRef .tc main_v1) :=
  (tr2_keep_v1 (W5 m ρ c)).trans ((relu_keep_v1 (W4 m ρ c)).trans ((agg64_keep_v1 (W3 m ρ c)).trans (take64_keep_v1 (W2 m ρ c))))
theorem W6_v3 (c : Dev nD) : W6 m ρ c (Proc.devRef .tc main_v3) = W2 m ρ c (Proc.devRef .tc main_v3) :=
  (tr2_keep_v3 (W5 m ρ c)).trans ((relu_keep_v3 (W4 m ρ c)).trans ((agg64_keep_v3 (W3 m ρ c)).trans (take64_keep_v3 (W2 m ρ c))))
theorem W6_arg4 (c : Dev nD) : W6 m ρ c (Proc.devRef .tc main_arg4) = W2 m ρ c (Proc.devRef .tc main_arg4) :=
  (tr2_keep_arg4 (W5 m ρ c)).trans ((relu_keep_arg4 (W4 m ρ c)).trans ((agg64_keep_arg4 (W3 m ρ c)).trans (take64_keep_arg4 (W2 m ρ c))))

/-- After the second region its result array is the whole product; every other buffer is as it was. -/
theorem W7_v15 (c : Dev nD) : W7 m ρ c (Proc.devRef .tc main_v15)
    = Linear1.prod (W6 m ρ c (Proc.devRef .tc main_v13)) (W6 m ρ c (Proc.devRef .tc main_v14)) :=
  (W7_arr m ρ c 2).trans (Linear1.final (V6 m ρ) c)
theorem W7_v1 (c : Dev nD) : W7 m ρ c (Proc.devRef .tc main_v1) = W6 m ρ c (Proc.devRef .tc main_v1) := W7_of_ne m ρ c main_v1 (by decide)
theorem W7_v3 (c : Dev nD) : W7 m ρ c (Proc.devRef .tc main_v3) = W6 m ρ c (Proc.devRef .tc main_v3) := W7_of_ne m ρ c main_v3 (by decide)
theorem W7_arg4 (c : Dev nD) : W7 m ρ c (Proc.devRef .tc main_arg4) = W6 m ρ c (Proc.devRef .tc main_arg4) := W7_of_ne m ρ c main_arg4 (by decide)

/-- After the second take. -/
theorem W8_v16 (c : Dev nD) : W8 m ρ c (Proc.devRef .tc main_v16)
    = take32 (W7 m ρ c (Proc.devRef .tc main_v15)) (W7 m ρ c (Proc.devRef .tc main_v1)) := by
  have h := take32_read (W7 m ρ c)
  rw [eq_of_heq (rd_heq (.of main_v16 : StableHlo.TRef sig ⟨S3200000x32, .f32⟩) (StableHlo.after hostOps2 (W7 m ρ c))),
    eq_of_heq (rd_heq (.of main_v15 : StableHlo.TRef sig ⟨S100000x32, .f32⟩) (W7 m ρ c)),
    eq_of_heq (rd_heq (.of main_v1 : StableHlo.TRef sig ⟨S3200000, .i32⟩) (W7 m ρ c))] at h
  exact h

/-- At the return: layer 2's take, scatter-add and bias of the second product. -/
theorem W9_v22 (c : Dev nD) : W9 m ρ c (Proc.devRef .tc main_v22)
    = agg32 (F := Ideal) (W7 m ρ c (Proc.devRef .tc main_v15)) (W7 m ρ c (Proc.devRef .tc main_v1)) (W7 m ρ c (Proc.devRef .tc main_v3))
        (W7 m ρ c (Proc.devRef .tc main_arg4)) := by
  have h := agg32_read (W8 m ρ c)
  rw [show W8 m ρ c (Proc.devRef .tc main_v16) = _ from W8_v16 m ρ c,
    show W8 m ρ c (Proc.devRef .tc main_v3) = _ from take32_keep_v3 (W7 m ρ c),
    show W8 m ρ c (Proc.devRef .tc main_arg4) = _ from take32_keep_arg4 (W7 m ρ c)] at h
  exact h

/-! ## The result as one function of the arguments -/

/-- The kernel program's result: layer₂ (relu (layer₁ (X · W1ᵀ)) · W2ᵀ), each layer the take at the wrapped source
    words, the scatter-add into the destination nodes and the bias. -/
def out (x0 : FVec Ideal S100000x1024 .f32) (x1 : FVec Ideal S64x1024 .f32) (x2 : FVec Ideal S64 .f32) (x3 : FVec Ideal S32x64 .f32)
    (x4 : FVec Ideal S32 .f32) (e : IVec S2x3200000 32) : FVec Ideal S100000x32 .f32 :=
  agg32
    (Linear1.prod
      (relu64 (agg64 (Linear0.prod x0 (transpose S1024x64 [1, 0] x1 transposes_S64x1024_S1024x64_1_0)) (srcOf e) (dstOf e) x2))
      (transpose S64x32 [1, 0] x3 transposes_S32x64_S64x32_1_0))
    (srcOf e) (dstOf e) x4

/-- The result buffer after the run holds `out` of the launch contents of the arguments. -/
theorem W9_out (c : Dev nD) : W9 m ρ c (Proc.devRef .tc main_v22)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [W9_v22, W7_v15, W7_v1, W7_v3, W7_arg4, W6_v13, W6_v14, W6_v1, W6_v3, W6_arg4, W2_v5, W2_v1, W2_v3, W2_arg2, W2_arg3, W2_arg4,
    W1_v1, W1_v3, W1_v4, W1_arg0, W1_arg2, W1_arg3, W1_arg4]
  rfl

/-! ## With every source word in [-N, N) the NaN fill never shows -/

/-- Layer 1 with the plain gather at the wrapped source words in the take's place. -/
def agg64c (h : FVec F S100000x64 .f32) (s d : IVec S3200000 32) (b : FVec F S64 .f32) : FVec F S100000x64 .f32 :=
  addf
    (Host.scatterAdd scatter_S100000x64_S3200000x1_S3200000x64_1_0_0_1
      (broadcastInDim S100000x64 ![] bcast_S_S100000x64 (constant S_ .f32 0x00000000#32))
      (broadcastInDim S3200000x1 ![0] bcast_S3200000_S3200000x1_0 d)
      (Host.gather gather_S100000x64_S3200000x1_S3200000x64_1_0_n_n_0_1_164 h (Take.wrapIdx s)))
    (broadcastInDim S100000x64 ![0, 1] bcast_S1x64_S100000x64_0_1 (broadcastInDim S1x64 ![1] bcast_S64_S1x64_1 b))
/-- Layer 2 likewise. -/
def agg32c (h : FVec F S100000x32 .f32) (s d : IVec S3200000 32) (b : FVec F S32 .f32) : FVec F S100000x32 .f32 :=
  addf
    (Host.scatterAdd scatter_S100000x32_S3200000x1_S3200000x32_1_0_0_1
      (broadcastInDim S100000x32 ![] bcast_S_S100000x32 (constant S_ .f32 0x00000000#32))
      (broadcastInDim S3200000x1 ![0] bcast_S3200000_S3200000x1_0 d)
      (Host.gather gather_S100000x32_S3200000x1_S3200000x32_1_0_n_n_0_1_132 h (Take.wrapIdx s)))
    (broadcastInDim S100000x32 ![0, 1] bcast_S1x32_S100000x32_0_1 (broadcastInDim S1x32 ![1] bcast_S32_S1x32_1 b))

theorem agg64_eq (h : FVec F S100000x64 .f32) (s d : IVec S3200000 32) (b : FVec F S64 .f32)
    (hs : ∀ e : S3200000.Idx, IntOp.cmpi .sge (s e) 4294867296#32 = 1#1 ∧ IntOp.cmpi .slt (s e) 100000#32 = 1#1) :
    agg64 h s d b = agg64c h s d b := by
  unfold agg64 agg64c
  rw [Take.take64 h s hs]
theorem agg32_eq (h : FVec F S100000x32 .f32) (s d : IVec S3200000 32) (b : FVec F S32 .f32)
    (hs : ∀ e : S3200000.Idx, IntOp.cmpi .sge (s e) 4294867296#32 = 1#1 ∧ IntOp.cmpi .slt (s e) 100000#32 = 1#1) :
    agg32 h s d b = agg32c h s d b := by
  unfold agg32 agg32c
  rw [Take.take32 h s hs]

end Cert.KernelIdeal.KValue

end
-- ==== Proof.RefValue.lean ====
/-
  The reference's result is the kernel's function of the arguments.
  Stage by stage the reference computes: the whole product X · W1ᵀ (a host dot_general: at the exact extended reals
  the same sum over k as the kernel's blockwise products); x[idx] at the wrapped source words — a plain gather —; the
  same scatter-add into the destination nodes, the same bias, the same relu; the second product; gather, scatter-add
  and bias again. With every source word in [-N, N) the kernel's NaN-filling take is that plain gather, so the two
  results are one function, index by index, with no algebra beyond naming the two products' summands alike.
-/
import proofs.«428779_j70832600646051_1_alg».proof.Proof.Gen.ReferenceIdeal.Run
import proofs.«428779_j70832600646051_1_alg».proof.Proof.Gen.ReferenceIdeal.Read
import proofs.«428779_j70832600646051_1_alg».proof.Proof.KernelValue

set_option maxRecDepth 16384

noncomputable section

namespace Cert.ReferenceIdeal.RefValue

open Cert.ReferenceIdeal Cert.ReferenceIdeal.Read Idealize.ShloMosaic

variable (x0 : FVec Ideal S100000x1024 .f32) (x1 : FVec Ideal S64x1024 .f32) (x2 : FVec Ideal S64 .f32) (x3 : FVec Ideal S32x64 .f32)
  (x4 : FVec Ideal S32 .f32) (x5 : IVec S2x3200000 32)

/-- The reference's first dot_general is the whole product of X with the transposed weight. -/
theorem dot1_eq : val_main_v5 (F := Ideal) x0 x1 = Cert.KernelIdeal.Linear0.prod x0 (val_main_v4 (F := Ideal) x1) := by
  funext i
  rw [val_main_v5_apply]
  show _ = ∑ k : Fin 1024, x0 (Cert.KernelIdeal.Linear0.lhsAt i k) * (val_main_v4 (F := Ideal) x1) (Cert.KernelIdeal.Linear0.rhsAt i k)
  refine Finset.sum_congr rfl fun k _ => ?_
  have hl : lidx_main_v5 i k = Cert.KernelIdeal.Linear0.lhsAt i k := funext fun a => by
    match a with
    | ⟨0, _⟩ => rfl
    | ⟨1, _⟩ => rfl
  have hr : ridx_main_v5 i k = Cert.KernelIdeal.Linear0.rhsAt i k := funext fun a => by
    match a with
    | ⟨0, _⟩ => rfl
    | ⟨1, _⟩ => rfl
  rw [hl, hr]

/-- The reference's second dot_general is the whole product of the hidden layer with the transposed weight. -/
theorem dot2_eq : val_main_v21 (F := Ideal) x0 x1 x2 x3 x5
    = Cert.KernelIdeal.Linear1.prod (val_main_v19 (F := Ideal) x0 x1 x2 x5) (val_main_v20 (F := Ideal) x3) := by
  funext i
  rw [val_main_v21_apply]
  show _ = ∑ k : Fin 64, (val_main_v19 (F := Ideal) x0 x1 x2 x5) (Cert.KernelIdeal.Linear1.lhsAt i k) * (val_main_v20 (F := Ideal) x3) (Cert.KernelIdeal.Linear1.rhsAt i k)
  refine Finset.sum_congr rfl fun k _ => ?_
  have hl : lidx_main_v21 i k = Cert.KernelIdeal.Linear1.lhsAt i k := funext fun a => by
    match a with
    | ⟨0, _⟩ => rfl
    | ⟨1, _⟩ => rfl
  have hr : ridx_main_v21 i k = Cert.KernelIdeal.Linear1.rhsAt i k := funext fun a => by
    match a with
    | ⟨0, _⟩ => rfl
    | ⟨1, _⟩ => rfl
  rw [hl, hr]

/-- The hidden layer: the relu of layer 1 (plain gather) of the first product. -/
theorem v19_eq : val_main_v19 (F := Ideal) x0 x1 x2 x5
    = Cert.KernelIdeal.KValue.relu64 (Cert.KernelIdeal.KValue.agg64c (val_main_v5 (F := Ideal) x0 x1)
        (Cert.KernelIdeal.KValue.srcOf x5) (Cert.KernelIdeal.KValue.dstOf x5) x2) := rfl

/-- The result: layer 2 (plain gather) of the second product. -/
theorem v34_eq : val_main_v34 (F := Ideal) x0 x1 x2 x3 x4 x5
    = Cert.KernelIdeal.KValue.agg32c (val_main_v21 (F := Ideal) x0 x1 x2 x3 x5)
        (Cert.KernelIdeal.KValue.srcOf x5) (Cert.KernelIdeal.KValue.dstOf x5) x4 := rfl

/-- With every source word in [-N, N), the reference's result is the kernel's function of the arguments. -/
theorem result_eq
    (hs : ∀ e : S3200000.Idx, IntOp.cmpi .sge (Cert.KernelIdeal.KValue.srcOf x5 e) 4294867296#32 = 1#1
      ∧ IntOp.cmpi .slt (Cert.KernelIdeal.KValue.srcOf x5 e) 100000#32 = 1#1) :
    val_main_v34 (F := Ideal) x0 x1 x2 x3 x4 x5 = Cert.KernelIdeal.KValue.out x0 x1 x2 x3 x4 x5 := by
  rw [v34_eq, dot2_eq, v19_eq, dot1_eq]
  unfold Cert.KernelIdeal.KValue.out
  rw [Cert.KernelIdeal.KValue.agg32_eq _ _ _ _ hs, Cert.KernelIdeal.KValue.agg64_eq _ _ _ _ hs]
  rfl

end Cert.ReferenceIdeal.RefValue

end
-- ==== Proof.PreRange.lean ====
/-
  The precondition read back. It is a conjunction of `jnp.all`s; the last two say that every source-node index word of the
  edge list (row 0 of edge_index) is at least -N and below N (N = 100000 nodes), as signed 32-bit comparisons. A conjunction
  of bits is 1 only if each is, and an `all` over an array is 1 only if every entry is.
-/
import proofs.«428779_j70832600646051_1_alg».proof.Pre_finite_inputs
import Idealize.ShloMosaic.Lib.ReduceAll
import Idealize.ShloMosaic.Lib.ValueIdx

noncomputable section

namespace Cert.Pre_finite_inputs.Range

open Cert.Pre_finite_inputs Idealize.ShloMosaic
open Facts

variable [Facts]
variable {F : FTy → Type} [FloatOps F]

instance : Subsingleton S_.Idx := ⟨fun a b => funext fun d => d.elim0⟩

/-- Row 0 of the edge list, as a vector of E words: the source-node indices. -/
def srcOf (e : IVec S2x3200000 32) : IVec S3200000 32 :=
  shapeCast S3200000 (extractStridedSlice S1x3200000 ![0, 0] e slices_S2x3200000_S1x3200000_0_0) shapeCasts_S1x3200000_S3200000

/-- Under the precondition every source index word lies in [-N, N). -/
theorem src_range (a0 : FVec F S100000x1024 .f32) (a1 : FVec F S64x1024 .f32) (a2 : FVec F S64 .f32) (a3 : FVec F S32x64 .f32)
    (a4 : FVec F S32 .f32) (a5 : IVec S2x3200000 32) (h : fn (F := F) a0 a1 a2 a3 a4 a5 = fun _ => 1#1) (i : S3200000.Idx) :
    IntOp.cmpi .sge (srcOf a5 i) 4294867296#32 = 1#1 ∧ IntOp.cmpi .slt (srcOf a5 i) 100000#32 = 1#1 := by
  have h0 := congrFun h ValueIdx.ix0
  dsimp only [fn, fn_part1, fn_part2] at h0
  change IntOp.andi _ _ = 1#1 at h0
  obtain ⟨hA, hB⟩ := IntOp.andi_eq_one.1 h0
  change IntOp.andi _ _ = 1#1 at hA
  obtain ⟨_, hC⟩ := IntOp.andi_eq_one.1 hA
  exact ⟨Host.reduce_andi_all _ _ _ _ _ hC i, Host.reduce_andi_all _ _ _ _ _ hB i⟩

end Cert.Pre_finite_inputs.Range

end
-- ==== Proof.lean ====
/-
  A two-layer graph convolution without normalisation: each layer is a linear map, then — for every edge (s → d) of the
  edge list — the row of the source node s is added into the row of the destination node d, then a bias; a relu sits
  between the layers. The kernel program runs the two linear maps as row-tiled matrix-unit products (2000 rows a grid
  point, the weight resident) and leaves the rest to the host; the reference is jnp throughout.

  At the exact extended reals the two programs compute one function of the arguments, index by index:
    • a tile's product into a zero accumulator is the plain sum over the contraction index, and the 50 row tiles tile
      the result, so each region leaves the whole product X · Wᵀ — the very sum the reference's dot_general denotes
      (changes of float format are identities here; no law of arithmetic is used, the summands are the same);
    • the kernel reads source rows with jnp.take (indices wrapped NumPy-style, out-of-range rows filled with a NaN),
      the reference with x[idx] (wrapped, then clamped). The statement's precondition says every source index lies in
      the index range [-N, N) of the N = 100000 rows it addresses; there every wrapped index passes take's range test,
      the fill never shows, and both read the same row. (Outside that range the reference itself indexes out of range
      and the two differ — a NaN row against a clamped one.) Finiteness of the float inputs is not used;
    • scatter-add, bias and relu are the same operations of the same operands on both sides.
  The frames of the two kernel programs are the generated ones; the reference's frame is its generated run. The
  kernel's idealization rewrote nothing, so `preserves` has nothing to state.
-/
import proofs.«428779_j70832600646051_1_alg».proof.Defs
import proofs.«428779_j70832600646051_1_alg».proof.Proof.Gen.Kernel
import proofs.«428779_j70832600646051_1_alg».proof.Proof.Gen.Kernel.Skeleton
import proofs.«428779_j70832600646051_1_alg».proof.Proof.Gen.Kernel.Launch
import proofs.«428779_j70832600646051_1_alg».proof.Proof.Gen.Kernel.Points
import proofs.«428779_j70832600646051_1_alg».proof.Proof.Gen.Kernel.Frame
import proofs.«428779_j70832600646051_1_alg».proof.Proof.Gen.KernelIdeal
import proofs.«428779_j70832600646051_1_alg».proof.Proof.Gen.KernelIdeal.Skeleton
import proofs.«428779_j70832600646051_1_alg».proof.Proof.Gen.KernelIdeal.Launch
import proofs.«428779_j70832600646051_1_alg».proof.Proof.Gen.KernelIdeal.Points
import proofs.«428779_j70832600646051_1_alg».proof.Proof.Gen.KernelIdeal.Frame
import proofs.«428779_j70832600646051_1_alg».proof.Proof.Gen.ReferenceIdeal
import proofs.«428779_j70832600646051_1_alg».proof.Proof.Gen.ReferenceIdeal.Run
import proofs.«428779_j70832600646051_1_alg».proof.Proof.Gen.ReferenceIdeal.Read
import proofs.«428779_j70832600646051_1_alg».proof.Proof.Gen.Pre_finite_inputs
import proofs.«428779_j70832600646051_1_alg».proof.Proof.KernelRun
import proofs.«428779_j70832600646051_1_alg».proof.Proof.KernelValue
import proofs.«428779_j70832600646051_1_alg».proof.Proof.RefValue
import proofs.«428779_j70832600646051_1_alg».proof.Proof.PreRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the same result: the kernel's result buffer holds `KValue.out` of its arguments (the fold
    through @main read back), the reference's holds its composed stages, and under the precondition's index range the
    two are one function (`RefValue.result_eq`). -/
theorem algebraic : Cert.algebraic_KernelIdeal_ReferenceIdeal := by
  intro m ρ m' ρ' hpre hagree
  have hs : ∀ (c : Dev Cert.KernelIdeal.nD) (e : Cert.KernelIdeal.S3200000.Idx),
      IntOp.cmpi .sge (Cert.KernelIdeal.KValue.srcOf (m ((c.tc : Thread Cert.KernelIdeal.nD Cert.KernelIdeal.τ).loc Cert.KernelIdeal.main_arg5)) e) 4294867296#32 = 1#1
      ∧ IntOp.cmpi .slt (Cert.KernelIdeal.KValue.srcOf (m ((c.tc : Thread Cert.KernelIdeal.nD Cert.KernelIdeal.τ).loc Cert.KernelIdeal.main_arg5)) e) 100000#32 = 1#1 :=
    fun c e => Cert.Pre_finite_inputs.Range.src_range _ _ _ _ _ _ (hpre c) e
  refine ⟨fun c => Cert.KernelIdeal.KValue.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.W9_out m ρ c), (h c).2⟩)
      (Cert.KernelIdeal.Gen.run_result m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact (Cert.ReferenceIdeal.Read.val_main_v34_eq _ _ _ _ _ _).trans
      (Cert.ReferenceIdeal.RefValue.result_eq _ _ _ _ _ _ (hs c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
